-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S8192x8192 : Shape := ⟨2, ![8192, 8192]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x8192, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1024, .f32⟩
  | .local _ .vmem, ⟨5, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  shapeCasts_S1024_S1x1024 : S1024.ShapeCasts S1x1024
  bitsLt_bf16_f32 : FTy.bits .bf16 < FTy.bits .f32
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x128, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x128_S8192x128_S8192x8192_1_1_0_0_n_n_wf : DotDims.WF S8192x128 S8192x128 S8192x8192 [1] [1] [0] [0] [] []

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf

class Facts : Prop extends Facts₀ where

variable [Facts]
-- ==== Proof.RbfSpec.lean ====
/-
  The Gaussian (RBF) kernel matrix of two families of 128-dimensional rows, as ONE function of the two arrays.

  Entry (r, c) is  exp (−1 · max (‖x_r‖² + ‖y_c‖² − 2·⟨x_r, y_c⟩, 0)):  the squared distance ‖x_r − y_c‖² written by the
  polarization identity, clamped at zero, then the exponential of its negative. The three ingredients are plain sums
  over the 128 feature coordinates: ‖x_r‖² = ∑ₖ x(r,k)·x(r,k), ‖y_c‖² = ∑ₖ y(c,k)·y(c,k), ⟨x_r, y_c⟩ = ∑ₖ x(r,k)·y(c,k).
  The constants −1, 2 and 0 are kept as the binary32 words both programs spell; nothing below evaluates them.

  Also here, because they need nothing but the shapes: a row-sum of a 1024 × 128 block, re-laid as a column [1024, 1]
  (or as a row [1, 1024]) and broadcast to 1024 × 1024, read at (p, q), is the sum over k of the block at (p, k)
  (or at (q, k)).
-/
import Idealize.ShloMosaic.PureOps.Ideal.Laws
import Idealize.ShloMosaic.Lib.ValueIdx
import Idealize.ShloMosaic.Lib.Pipeline.Value

noncomputable section

namespace Cert.Rbf

open Idealize.ShloMosaic Idealize.ShloMosaic.ValueIdx

/-- One entry of the matrix from the two squared norms `nx`, `ny` and the inner product `ip`:
    `exp (−1 · max (nx + ny − 2·ip) 0)`, on the extended reals. -/
def entry (nx ny ip : EReal) : EReal :=
  Ideal.exp (Ideal.ofBits .f32 0xBF800000#32
    * max (nx + ny - Ideal.ofBits .f32 0x40000000#32 * ip) (Ideal.ofBits .f32 0x00000000#32))

/-- Entry (r, c) of the matrix of `x` against `y`: the three sums over the feature axis, then `entry`. -/
def rbfAt (x y : (⟨2, ![8192, 128]⟩ : Shape).Idx → EReal) (r c : Fin 8192) : EReal :=
  entry (∑ k : Fin 128, x (ix2 r k) * x (ix2 r k)) (∑ k : Fin 128, y (ix2 c k) * y (ix2 c k))
    (∑ k : Fin 128, x (ix2 r k) * y (ix2 c k))

/-- The whole 8192 × 8192 matrix, index by index. -/
def rbf (x y : (⟨2, ![8192, 128]⟩ : Shape).Idx → EReal) : (⟨2, ![8192, 8192]⟩ : Shape).Idx → EReal :=
  fun i => rbfAt x y (i 0) (i 1)

theorem rbf_ix2 (x y : (⟨2, ![8192, 128]⟩ : Shape).Idx → EReal) (r c : Fin 8192) :
    rbf x y (ix2 r c) = rbfAt x y r c := rfl

/-! ## Row sums of a block, re-laid and broadcast -/

/-- The sum over the 128 lanes of row `p` of a 1024 × 128 block. -/
theorem rowSum_apply (v : FVec Ideal ⟨2, ![1024, 128]⟩ .f32)
    (hr : (⟨2, ![1024, 128]⟩ : Shape).Reduces [1] ⟨1, ![1024]⟩) (hφ : FKind.Formats .f32)
    (hacc : (0x00000000#32 : BitVec 32) = FKind.add.neutral .f32 hφ) (p : Fin 1024) :
    multiReduction .add [1] ⟨1, ![1024]⟩ v 0x00000000#32 hr hφ hacc (ix1 p) = ∑ k : Fin 128, v (ix2 p k) := by
  refine (Ideal.multiReduction_add_single v _ hr hφ hacc (ix1 p)).trans ?_
  exact Finset.sum_congr rfl fun k _ => congrArg v (funext fun a => Fin.ext (by
    match a with
    | ⟨0, _⟩ => rfl
    | ⟨1, _⟩ => rfl))

/-- A length-1024 vector re-laid as a COLUMN [1024, 1] and broadcast along the columns: at (p, q) it is entry `p`. -/
theorem column_apply {α : Type} (u : (⟨1, ![1024]⟩ : Shape).Idx → α)
    (hc : (⟨1, ![1024]⟩ : Shape).ShapeCasts ⟨2, ![1024, 1]⟩)
    (hb : (⟨2, ![1024, 1]⟩ : Shape).Broadcasts ⟨2, ![1024, 1024]⟩) (p q : Fin 1024) :
    broadcastTo ⟨2, ![1024, 1024]⟩ (shapeCast ⟨2, ![1024, 1]⟩ u hc) hb (ix2 p q) = u (ix1 p) := by
  refine (broadcastTo_apply _ hb (ix2 p q) (ix2 p (0 : Fin 1)) (fun a => ?_)).trans ?_
  · match a with
    | ⟨0, _⟩ => show p.val = if (1024 : Nat) = 1 then 0 else p.val; rw [if_neg (by decide)]
    | ⟨1, _⟩ => show 0 = if (1 : Nat) = 1 then 0 else q.val; rw [if_pos rfl]
  · refine shapeCast_apply u hc (ix2 p (0 : Fin 1)) (ix1 p) ?_
    rw [Shape.rowMajor_val_one, Shape.rowMajor_val_two]
    show p.val = p.val * 1 + 0
    omega

/-- A length-1024 vector re-laid as a ROW [1, 1024] and broadcast along the rows: at (p, q) it is entry `q`. -/
theorem row_apply {α : Type} (u : (⟨1, ![1024]⟩ : Shape).Idx → α)
    (hc : (⟨1, ![1024]⟩ : Shape).ShapeCasts ⟨2, ![1, 1024]⟩)
    (hb : (⟨2, ![1, 1024]⟩ : Shape).Broadcasts ⟨2, ![1024, 1024]⟩) (p q : Fin 1024) :
    broadcastTo ⟨2, ![1024, 1024]⟩ (shapeCast ⟨2, ![1, 1024]⟩ u hc) hb (ix2 p q) = u (ix1 q) := by
  refine (broadcastTo_apply _ hb (ix2 p q) (ix2 (0 : Fin 1) q) (fun a => ?_)).trans ?_
  · match a with
    | ⟨0, _⟩ => show 0 = if (1 : Nat) = 1 then 0 else p.val; rw [if_pos rfl]
    | ⟨1, _⟩ => show q.val = if (1024 : Nat) = 1 then 0 else q.val; rw [if_neg (by decide)]
  · refine shapeCast_apply u hc (ix2 (0 : Fin 1) q) (ix1 q) ?_
    rw [Shape.rowMajor_val_one, Shape.rowMajor_val_two]
    show q.val = 0 * 1024 + q.val
    omega

end Cert.Rbf

end
-- ==== Proof.RbfBlock.lean ====
/-
  What the kernel body writes for one 1024 × 1024 tile, entry by entry.

  From a block `xb` of 1024 rows of `x` and a block `yb` of 1024 rows of `y`, entry (p, q) of the stored tile is
  `Cert.Rbf.entry (∑ₖ xb(p,k)²) (∑ₖ yb(q,k)²) (∑ₖ xb(p,k)·yb(q,k))`:
  the lane sums of the squared blocks, one re-laid as a column and one as a row and both broadcast over the tile;
  the matrix product of the two blocks contracted over the 128 features, accumulated into a zero tile, so that it is
  the bare sum (the narrowing of its operands to a 16-bit format changes nothing over the extended reals); then the
  pointwise subtraction, clamp at zero, negation and exponential.
-/
import proofs.«121384_j65481071405325_1_alg».proof.Proof.Gen.KernelIdeal.Skeleton
import proofs.«121384_j65481071405325_1_alg».proof.Proof.RbfSpec

noncomputable section

namespace Cert.Rbf.Block

open Cert.KernelIdeal Cert.KernelIdeal.Gen
open Idealize.ShloMosaic Idealize.ShloMosaic.ValueIdx

/-! ## The matrix product of two row blocks -/

/-- The left operand is read at the output's ROW and the contracted coordinate, -/
theorem lhs_axis0 (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
theorem lhs_axis1 (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q
/-- and the right operand at the output's COLUMN and the contracted coordinate: the product is `xb · ybᵀ`. -/
theorem rhs_axis0 (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
theorem rhs_axis1 (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

/-- The product of the two narrowed blocks into a zero tile, at (p, q): the inner product of row `p` of `xb` and
    row `q` of `yb`. -/
theorem gram_apply (xb yb : FVec Ideal S1024x128 .f32) (hlt : FTy.bits .bf16 < FTy.bits .f32) (p q : Fin 1024) :
    matmul dot_S1024x128_S1024x128_S1024x1024_1_1_0_0_n_n none (truncf .bf16 xb hlt) (truncf .bf16 yb hlt) (constant S1024x1024 .f32 0x00000000#32) (ix2 p q)
      = ∑ k : Fin 128, xb (ix2 p k) * yb (ix2 q k) := by
  refine (Ideal.matmul_constant_zero_apply dot_S1024x128_S1024x128_S1024x1024_1_1_0_0_n_n none (truncf .bf16 xb hlt) (truncf .bf16 yb hlt) (ix2 p q)).trans ?_
  rw [← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  have el : dot_S1024x128_S1024x128_S1024x1024_1_1_0_0_n_n.lhsIdx (ix2 p q) ((contrEquiv1 dot_S1024x128_S1024x128_S1024x1024_1_1_0_0_n_n 128 rfl rfl).symm k) = ix2 p k := funext fun a => Fin.ext (by
    match a with
    | ⟨0, _⟩ => exact lhs_axis0 _ _
    | ⟨1, _⟩ => exact (lhs_axis1 _ _).trans hk)
  have er : dot_S1024x128_S1024x128_S1024x1024_1_1_0_0_n_n.rhsIdx (ix2 p q) ((contrEquiv1 dot_S1024x128_S1024x128_S1024x1024_1_1_0_0_n_n 128 rfl rfl).symm k) = ix2 q k := funext fun a => Fin.ext (by
    match a with
    | ⟨0, _⟩ => exact rhs_axis0 _ _
    | ⟨1, _⟩ => exact (rhs_axis1 _ _).trans hk)
  rw [el, er]
  rfl

/-! ## The stored tile -/

/-- Entry (p, q) of the tile the body stores, from the two loaded blocks. -/
theorem tile_apply (xb yb : FVec Ideal S1024x128 .f32) (p q : Fin 1024) :
    k0_pay1 (F := Ideal) xb yb (ix2 p q)
      = Cert.Rbf.entry (∑ k : Fin 128, xb (ix2 p k) * xb (ix2 p k)) (∑ k : Fin 128, yb (ix2 q k) * yb (ix2 q k))
          (∑ k : Fin 128, xb (ix2 p k) * yb (ix2 q k)) := by
  unfold k0_pay1 Cert.Rbf.entry
  refine congrArg Ideal.exp (congrArg (_ * ·) (congrArg₂ max (congrArg₂ (· - ·) (congrArg₂ (· + ·) ?_ ?_) (congrArg (_ * ·) ?_)) rfl))
  · exact (Cert.Rbf.column_apply _ _ _ p q).trans (Cert.Rbf.rowSum_apply (mulf xb xb) _ _ _ p)
  · exact (Cert.Rbf.row_apply _ _ _ p q).trans (Cert.Rbf.rowSum_apply (mulf yb yb) _ _ _ q)
  · exact gram_apply xb yb _ p q

end Cert.Rbf.Block

end
-- ==== Proof.RbfKernel.lean ====
/-
  The kernel's result array is the Gaussian kernel matrix `Cert.Rbf.rbf` of its two argument arrays.

  The 8 × 8 grid tiles the 8192 × 8192 result by 1024 × 1024 tiles. At the point with tile coordinates (I, J) the
  body is handed rows 1024·I … 1024·I + 1023 of `x` and rows 1024·J … 1024·J + 1023 of `y`, and stores the tile whose
  entry (p, q) is `entry` of the squared norms of those two rows and of their inner product (`Cert.Rbf.Block.tile_apply`);
  that is entry (1024·I + p, 1024·J + q) of `rbf x y`. So every point writes back ITS tile of one whole-array
  function, every index of the result lies in the tile of the point (⌊r / 1024⌋, ⌊c / 1024⌋), and the array ends at `rbf x y`.
-/
import proofs.«121384_j65481071405325_1_alg».proof.Proof.Gen.KernelIdeal.Value
import proofs.«121384_j65481071405325_1_alg».proof.Proof.RbfBlock

noncomputable section

namespace Cert.Rbf.Kernel

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- The block index maps over the grid: the `x` window follows the tile's ROW coordinate, the `y` window its COLUMN
    coordinate, neither moves along the feature axis, and the tile coordinates stay below 8. -/
theorem index_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 7 :=
  (by decide +kernel : ∀ t : Fin grid0.N, _)

/-- Every tile coordinate pair is some grid point's. -/
theorem index_onto : ∀ (I J : Fin 8), ∃ t : Fin cfg0.N, win0_2.index t = ![I.val, J.val] :=
  (by decide +kernel : ∀ (I J : Fin 8), ∃ t : Fin grid0.N, win0_2.index t = ![I.val, J.val])

/-! ## The two input blocks at a point, as rows of the arguments -/

/-- Row `p` of the `x` block at point `t` is row `1024·I + p` of `x`, `I` the tile's row coordinate. -/
theorem xblock_apply (c : Dev nD) (t : Fin cfg0.N) (p : Fin 1024) (k : Fin 128) (R : Fin 8192)
    (hR : R.val = win0_2.index t (0 : Fin 2) * 1024 + p.val) :
    (iblk m c 0 t : FVec Ideal S1024x128 .f32) (ix2 p k) = (V m c main_arg0 : S8192x128.Idx → EReal) (ix2 R k) := by
  obtain ⟨e0, e1, -, -, -, -⟩ := index_facts t
  unfold iblk
  rw [View.read_apply]
  show V m c main_arg0 _ = V m c main_arg0 _
  refine congrArg (V m c main_arg0) (funext fun a => Fin.ext ?_)
  match a with
  | ⟨0, _⟩ => show win0_0.index t (0 : Fin 2) * 1024 + 1 * p.val = R.val; omega
  | ⟨1, _⟩ => show win0_0.index t (1 : Fin 2) * 128 + 1 * k.val = k.val; omega

/-- Row `q` of the `y` block at point `t` is row `1024·J + q` of `y`, `J` the tile's column coordinate. -/
theorem yblock_apply (c : Dev nD) (t : Fin cfg0.N) (q : Fin 1024) (k : Fin 128) (C : Fin 8192)
    (hC : C.val = win0_2.index t (1 : Fin 2) * 1024 + q.val) :
    (iblk m c 1 t : FVec Ideal S1024x128 .f32) (ix2 q k) = (V m c main_arg1 : S8192x128.Idx → EReal) (ix2 C k) := by
  obtain ⟨-, -, e2, e3, -, -⟩ := index_facts t
  unfold iblk
  rw [View.read_apply]
  show V m c main_arg1 _ = V m c main_arg1 _
  refine congrArg (V m c main_arg1) (funext fun a => Fin.ext ?_)
  match a with
  | ⟨0, _⟩ => show win0_1.index t (0 : Fin 2) * 1024 + 1 * q.val = C.val; omega
  | ⟨1, _⟩ => show win0_1.index t (1 : Fin 2) * 128 + 1 * k.val = k.val; omega

/-! ## What a point writes back -/

/-- Point `t` writes back tile `t` of the Gaussian kernel matrix of the argument arrays. -/
theorem flushed_eq (c : Dev nD) (t : Fin cfg0.N) :
    (dats m 0 c).flushed 2 t
      = ((cfg0.win 2).blk t).view.read (Elt Ideal) (Cert.Rbf.rbf (V m c main_arg0) (V m c main_arg1)) := by
  rw [flushed2]
  unfold out0_2
  rw [View.canon_unit_zero offsets_zero]
  simp only [View.ld_unit_zero (S := S1024x128) offsets_zero]
  obtain ⟨-, -, -, -, e4, e5⟩ := index_facts t
  funext j
  obtain ⟨p, q, rfl⟩ : ∃ (p q : Fin 1024), j = ix2 p q := ⟨j 0, j 1, eq_ix2 j⟩
  have hR : win0_2.index t (0 : Fin 2) * 1024 + p.val < 8192 := by have := p.isLt; omega
  have hC : win0_2.index t (1 : Fin 2) * 1024 + q.val < 8192 := by have := q.isLt; omega
  show k0_pay1 (F := Ideal) (iblk m c 0 t) (iblk m c 1 t) (ix2 p q)
    = Cert.Rbf.rbf (V m c main_arg0) (V m c main_arg1) (((cfg0.win 2).blk t).view.emb (ix2 p q))
  have hemb : ((cfg0.win 2).blk t).view.emb (ix2 p q)
      = ix2 (⟨win0_2.index t (0 : Fin 2) * 1024 + p.val, hR⟩ : Fin 8192) (⟨win0_2.index t (1 : Fin 2) * 1024 + q.val, hC⟩ : Fin 8192) :=
    funext fun a => Fin.ext (by
      match a with
      | ⟨0, _⟩ => show win0_2.index t (0 : Fin 2) * 1024 + 1 * p.val = win0_2.index t (0 : Fin 2) * 1024 + p.val; omega
      | ⟨1, _⟩ => show win0_2.index t (1 : Fin 2) * 1024 + 1 * q.val = win0_2.index t (1 : Fin 2) * 1024 + q.val; omega)
  rw [hemb, Cert.Rbf.rbf_ix2]
  refine (Cert.Rbf.Block.tile_apply (iblk m c 0 t) (iblk m c 1 t) p q).trans ?_
  have hx : ∀ k : Fin 128, (iblk m c 0 t : FVec Ideal S1024x128 .f32) (ix2 p k)
      = (V m c main_arg0 : S8192x128.Idx → EReal) (ix2 (⟨win0_2.index t (0 : Fin 2) * 1024 + p.val, hR⟩ : Fin 8192) k) :=
    fun k => xblock_apply m c t p k _ rfl
  have hy : ∀ k : Fin 128, (iblk m c 1 t : FVec Ideal S1024x128 .f32) (ix2 q k)
      = (V m c main_arg1 : S8192x128.Idx → EReal) (ix2 (⟨win0_2.index t (1 : Fin 2) * 1024 + q.val, hC⟩ : Fin 8192) k) :=
    fun k => yblock_apply m c t q k _ rfl
  unfold Cert.Rbf.rbfAt
  simp only [hx, hy]

/-! ## The tiles cover the matrix -/

/-- An index of the result is in point `t`'s tile iff each coordinate is in the tile's range on its axis. -/
theorem mem_tile (t : Fin cfg0.N) (i : S8192x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- Entry (r, c) lies in the tile of the point with tile coordinates (⌊r / 1024⌋, ⌊c / 1024⌋), and every point writes back. -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := index_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_tile]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-! ## The array after the run, and the run -/

/-- After the last point the result array holds the Gaussian kernel matrix of the two arguments as launched. -/
theorem final (c : Dev nD) :
    (dats m 0 c).arrAt 2 cfg0.N
      = Cert.Rbf.rbf (m ((c : Thread nD τ).loc main_arg0)) (m ((c : Thread nD τ).loc main_arg1)) :=
  (dats m 0 c).arrAt_eq_of_cover 2 (Cert.Rbf.rbf (V m c main_arg0) (V m c main_arg1))
    (fun t _ => flushed_eq m c t) covered

/-- Every weakly fair execution of the idealized kernel terminates with the result array at `rbf x y` and the arguments unchanged. -/
theorem run : θ_run defs (onTc (τ := τ) (main (F := Ideal))) ⟨m, fun _ => 0, ρ⟩ fun r => ∀ c : Dev nD,
      r.2.mem ((c : Thread nD τ).loc main_v0)
        = Cert.Rbf.rbf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.Rbf.Kernel

end
-- ==== Proof.RbfReference.lean ====
/-
  The reference computes the Gaussian kernel matrix `Cert.Rbf.rbf`.

  Read one host operation at a time, entry (r, c) of the reference's result is
  exp (−1 · max ((0 + ∑ₖ x(r,k)²) + (0 + ∑ₖ y(c,k)²) − 2·∑ₖ x(r,k)·y(c,k), 0)): the two row-sums broadcast along
  the columns and along the rows, the product x·yᵀ as a sum over the contracted feature axis. The two initial
  values `0` of the row-sums are absorbed (0 + s = s on the extended reals), and what is left is `Cert.Rbf.rbfAt`
  term for term; no other law is used, and none that needs finite inputs.
-/
import proofs.«121384_j65481071405325_1_alg».proof.Proof.Gen.ReferenceIdeal.Read
import proofs.«121384_j65481071405325_1_alg».proof.Proof.RbfSpec

noncomputable section

namespace Cert.Rbf.Reference

open Cert.ReferenceIdeal Cert.ReferenceIdeal.Gen Cert.ReferenceIdeal.Read
open Idealize.ShloMosaic Idealize.ShloMosaic.ValueIdx

/-- The reference's result, as a function of its two argument arrays, is the Gaussian kernel matrix. -/
theorem result_eq (x0 x1 : (⟨S8192x128, .f32⟩ : BufTy).Contents (Elt Ideal)) :
    val_main_v17 (F := Ideal) x0 x1 = Cert.Rbf.rbf x0 x1 := by
  funext i
  obtain ⟨r, c, rfl⟩ : ∃ (r c : Fin 8192), i = ix2 r c := ⟨i 0, i 1, eq_ix2 i⟩
  -- the row of `x` and the row of `y` that entry (r, c) reads, feature coordinate by feature coordinate
  have ex : ∀ k : Fin 128, idx_main_v1 (idx_main_v5 (idx_main_v7 (ix2 r c))) k = ix2 r k := fun k =>
    funext fun a => Fin.ext (by
      match a with
      | ⟨0, _⟩ => rfl
      | ⟨1, _⟩ => rfl)
  have ey : ∀ k : Fin 128, idx_main_v3 (idx_main_v6 (idx_main_v8 (ix2 r c))) k = ix2 c k := fun k =>
    funext fun a => Fin.ext (by
      match a with
      | ⟨0, _⟩ => rfl
      | ⟨1, _⟩ => rfl)
  have el : ∀ k : Fin 128, lidx_main_v4 (ix2 r c) k = ix2 r k := fun k =>
    funext fun a => Fin.ext (by
      match a with
      | ⟨0, _⟩ => rfl
      | ⟨1, _⟩ => rfl)
  have er : ∀ k : Fin 128, ridx_main_v4 (ix2 r c) k = ix2 c k := fun k =>
    funext fun a => Fin.ext (by
      match a with
      | ⟨0, _⟩ => rfl
      | ⟨1, _⟩ => rfl)
  rw [Cert.Rbf.rbf_ix2, val_main_v17_apply, val_main_v16_apply, val_main_v15_apply, val_main_cst_3_apply,
    val_main_v14_apply, val_main_v13_apply, val_main_cst_2_apply, val_main_v12_apply, val_main_v9_apply,
    val_main_v11_apply, val_main_v10_apply, val_main_cst_1_apply, val_main_v4_apply,
    val_main_v7_apply, val_main_v5_apply, val_main_v1_apply, val_main_v8_apply, val_main_v6_apply, val_main_v3_apply]
  simp only [val_main_v0_apply, val_main_v2_apply, val_main_cst_apply, val_main_cst_0_apply, ex, ey, el, er,
    Cert.Rbf.rbfAt, Cert.Rbf.entry, Ideal.ofBits_def, Ideal.ofBits_zero_f32, zero_add, Ideal.hostUnary_exp_def,
    Ideal.mulf_def, Ideal.addf_def, Ideal.subf_def, Ideal.maximumf_def]

end Cert.Rbf.Reference

end
-- ==== Proof.lean ====
/-
  The Pallas tile kernel and its jnp reference compute the same Gaussian (RBF) kernel matrix over the extended reals.

  For x, y of 8192 rows and 128 features, entry (r, c) of both results is
      exp (−1 · max (‖x_r‖² + ‖y_c‖² − 2·⟨x_r, y_c⟩, 0)),
  the squared distance ‖x_r − y_c‖² by the polarization identity, clamped at zero (`Cert.Rbf.rbf`, Proof/RbfSpec.lean).

  • The kernel computes it tile by tile: point (I, J) of the 8 × 8 grid takes 1024 rows of x and 1024 rows of y and
    stores the 1024 × 1024 tile whose entries are `entry` of the two lane sums of squares and of the block product
    x_I · y_Jᵀ (Proof/RbfBlock.lean); the tiles are the blocks of ONE whole-array function and cover the result
    (Proof/RbfKernel.lean).
  • The reference computes it whole: two row-sums broadcast along columns and rows, one product x · yᵀ as a sum over
    the feature axis, the same pointwise tail (Proof/RbfReference.lean).
  The two agree term for term: the same constants −1, 2, 0 in the same places, every sum over the same 128 feature
  coordinates. The only laws used are that a matrix product into a zero accumulator and a sum started from zero are
  the bare sums (0 + s = s), and that narrowing a value to a 16-bit format is the identity over the extended reals;
  neither needs the inputs to be finite, so the precondition is never opened.

  The three frames: the kernel's (at the word level and idealized) are the generated frame runs; the reference has
  no kernel launch, and its frame is its run with the result forgotten. The idealization rewrote no operation, so
  `preserves` has nothing to state.
-/
import proofs.«121384_j65481071405325_1_alg».proof.Defs
import proofs.«121384_j65481071405325_1_alg».proof.Proof.Gen.Kernel
import proofs.«121384_j65481071405325_1_alg».proof.Proof.Gen.Kernel.Skeleton
import proofs.«121384_j65481071405325_1_alg».proof.Proof.Gen.Kernel.Launch
import proofs.«121384_j65481071405325_1_alg».proof.Proof.Gen.Kernel.Points
import proofs.«121384_j65481071405325_1_alg».proof.Proof.Gen.Kernel.Frame
import proofs.«121384_j65481071405325_1_alg».proof.Proof.Gen.KernelIdeal
import proofs.«121384_j65481071405325_1_alg».proof.Proof.Gen.KernelIdeal.Skeleton
import proofs.«121384_j65481071405325_1_alg».proof.Proof.Gen.KernelIdeal.Launch
import proofs.«121384_j65481071405325_1_alg».proof.Proof.Gen.KernelIdeal.Points
import proofs.«121384_j65481071405325_1_alg».proof.Proof.Gen.KernelIdeal.Frame
import proofs.«121384_j65481071405325_1_alg».proof.Proof.Gen.ReferenceIdeal
import proofs.«121384_j65481071405325_1_alg».proof.Proof.Gen.Pre_finite_inputs
import proofs.«121384_j65481071405325_1_alg».proof.Proof.Gen.KernelIdeal.Value
import proofs.«121384_j65481071405325_1_alg».proof.Proof.Gen.ReferenceIdeal.Run
import proofs.«121384_j65481071405325_1_alg».proof.Proof.Gen.ReferenceIdeal.Read
import proofs.«121384_j65481071405325_1_alg».proof.Proof.RbfKernel
import proofs.«121384_j65481071405325_1_alg».proof.Proof.RbfReference
import Idealize.ShloMosaic.Adequacy
import Idealize.ShloMosaic.Init

noncomputable section

namespace Cert.Proof

open Idealize.ShloMosaic Idealize.SL.Sem

/-- The word-level kernel terminates without a fault and leaves `x` and `y` as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals, no operation rewritten: there is no conjunct. -/
theorem preserves : Cert.preserves_Kernel_KernelIdeal := trivial

/-- Both programs end with the result array at `rbf x y` of the arguments they were launched with, and those agree. -/
theorem algebraic : Cert.algebraic_KernelIdeal_ReferenceIdeal := by
  intro m ρ m' ρ' _ hagree
  refine ⟨fun c => Cert.Rbf.rbf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Rbf.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.Rbf.Reference.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
